-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x10000 .f32) (main_arg1 : FVec F S10000x128 .f32) (main_arg2 : FVec F S128x128 .f32) (main_arg3 : FVec F S128 .f32) (main_arg4 : FVec F S128x64 .f32) (main_arg5 : FVec F S64 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S1000x128 : Shape := ⟨2, ![1000, 128]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩

abbrev nBuf : Space → Nat
  | .hbm => 11
  | .vmem => 18
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S1x64, .f32⟩
  | .hbm, ⟨8, _⟩ => ⟨S10000x128, .f32⟩
  | .hbm, ⟨9, _⟩ => ⟨S10000x64, .f32⟩
  | .hbm, ⟨10, _⟩ => ⟨S10000x64, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S128x64, .f32⟩
  | .local _ .vmem, ⟨10, _⟩ => ⟨S1x64, .f32⟩
  | .local _ .vmem, ⟨11, _⟩ => ⟨S400x64, .f32⟩
  | .local _ .vmem, ⟨12, _⟩ => ⟨S400x64, .f32⟩
  | .local _ .vmem, ⟨13, _⟩ => ⟨S400x10000, .f32⟩
  | .local _ .vmem, ⟨14, _⟩ => ⟨S400x10000, .f32⟩
  | .local _ .vmem, ⟨15, _⟩ => ⟨S10000x64, .f32⟩
  | .local _ .vmem, ⟨16, _⟩ => ⟨S400x64, .f32⟩
  | .local _ .vmem, ⟨17, _⟩ => ⟨S400x64, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  shapeCasts_S64_S1x64 : S64.ShapeCasts S1x64
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  dot_S1000x128_S128x128_S1000x128_1_0_0_1_n_n_wf : DotDims.WF S1000x128 S128x128 S1000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S10000x128.size a
  hwx0_3 : ∀ i : grid0.Coords, EltTy.bits .f32 = 32 ∨ (Rect.block (s := S10000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg1) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S400x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩

abbrev nBuf : Space → Nat
  | .hbm => 19
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S1x64, .f32⟩
  | .hbm, ⟨16, _⟩ => ⟨S10000x64, .f32⟩
  | .hbm, ⟨17, _⟩ => ⟨S10000x64, .f32⟩
  | .hbm, ⟨18, _⟩ => ⟨S10000x64, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  Two stacked dense graph-convolution layers, entry by entry, over the extended reals.

  Three whole-array functions carry everything both programs compute:
    * `prop a y`   — the propagation step: entry (r, c) is the sum over k of a(r, k) · y(k, c);
    * `relu y`     — every entry replaced by its maximum with zero;
    * `lin x w b`  — the linear map with a bias row: entry (r, j) is the sum over k of x(r, k) · w(k, j), plus b(0, j).
  The network's result is `prop a (lin (relu (prop a (lin x w1 b1))) w2 b2)`.

  An entry of `prop` and of `lin` looks only at ONE ROW of its left operand. That is what lets a block of rows of the
  result be computed from the same block of rows of the left operand alone (`propAt_congr`, `linAt_congr`).
-/
import Idealize.ShloMosaic.PureOps.Ideal
import Idealize.ShloMosaic.Lib.ValueIdx

noncomputable section

open scoped BigOperators

namespace Cert.GcnSpec

open Idealize.ShloMosaic Idealize.ShloMosaic.ValueIdx

/-- The extended real the all-zero single-precision word denotes. -/
abbrev zero : EReal := Ideal.ofBits .f32 0x00000000#32

/-- Entry (r, c) of the matrix product a · y. -/
def propAt {n k m : Nat} (a : FVec Ideal ⟨2, ![n, k]⟩ .f32) (y : FVec Ideal ⟨2, ![k, m]⟩ .f32) (r : Fin n) (c : Fin m) : EReal :=
  ∑ l : Fin k, a (ix2 r l) * y (ix2 l c)

/-- The matrix product a · y. -/
def prop {n k m : Nat} (a : FVec Ideal ⟨2, ![n, k]⟩ .f32) (y : FVec Ideal ⟨2, ![k, m]⟩ .f32) : FVec Ideal ⟨2, ![n, m]⟩ .f32 :=
  fun i => propAt a y (i 0) (i 1)

/-- Every entry's maximum with zero. -/
def relu {n m : Nat} (y : FVec Ideal ⟨2, ![n, m]⟩ .f32) : FVec Ideal ⟨2, ![n, m]⟩ .f32 :=
  fun i => max (y i) zero

/-- Entry (r, j) of x · w plus the bias row b. -/
def linAt {n k m : Nat} (x : FVec Ideal ⟨2, ![n, k]⟩ .f32) (w : FVec Ideal ⟨2, ![k, m]⟩ .f32) (b : FVec Ideal ⟨2, ![1, m]⟩ .f32)
    (r : Fin n) (j : Fin m) : EReal :=
  (∑ l : Fin k, x (ix2 r l) * w (ix2 l j)) + b (ix2 (0 : Fin 1) j)

/-- x · w plus the bias row b, on every row. -/
def lin {n k m : Nat} (x : FVec Ideal ⟨2, ![n, k]⟩ .f32) (w : FVec Ideal ⟨2, ![k, m]⟩ .f32) (b : FVec Ideal ⟨2, ![1, m]⟩ .f32) :
    FVec Ideal ⟨2, ![n, m]⟩ .f32 :=
  fun i => linAt x w b (i 0) (i 1)

theorem prop_ix2 {n k m : Nat} (a : FVec Ideal ⟨2, ![n, k]⟩ .f32) (y : FVec Ideal ⟨2, ![k, m]⟩ .f32) (r : Fin n) (c : Fin m) :
    prop a y (ix2 r c) = propAt a y r c := rfl

theorem relu_ix2 {n m : Nat} (y : FVec Ideal ⟨2, ![n, m]⟩ .f32) (r : Fin n) (c : Fin m) :
    relu y (ix2 r c) = max (y (ix2 r c)) zero := rfl

theorem lin_ix2 {n k m : Nat} (x : FVec Ideal ⟨2, ![n, k]⟩ .f32) (w : FVec Ideal ⟨2, ![k, m]⟩ .f32) (b : FVec Ideal ⟨2, ![1, m]⟩ .f32)
    (r : Fin n) (j : Fin m) : lin x w b (ix2 r j) = linAt x w b r j := rfl

/-- An entry of a · y depends on a through one row only: two left operands that agree on the rows r and r' give the same entry. -/
theorem propAt_congr {n n' k m : Nat} (a : FVec Ideal ⟨2, ![n, k]⟩ .f32) (a' : FVec Ideal ⟨2, ![n', k]⟩ .f32)
    (y : FVec Ideal ⟨2, ![k, m]⟩ .f32) (r : Fin n) (r' : Fin n') (c : Fin m)
    (h : ∀ l : Fin k, a (ix2 r l) = a' (ix2 r' l)) : propAt a y r c = propAt a' y r' c := by
  unfold propAt
  exact Finset.sum_congr rfl fun l _ => by rw [h l]

/-- An entry of x · w + b depends on x through one row only. -/
theorem linAt_congr {n n' k m : Nat} (x : FVec Ideal ⟨2, ![n, k]⟩ .f32) (x' : FVec Ideal ⟨2, ![n', k]⟩ .f32)
    (w : FVec Ideal ⟨2, ![k, m]⟩ .f32) (b : FVec Ideal ⟨2, ![1, m]⟩ .f32) (r : Fin n) (r' : Fin n') (j : Fin m)
    (h : ∀ l : Fin k, x (ix2 r l) = x' (ix2 r' l)) : linAt x w b r j = linAt x' w b r' j := by
  unfold linAt
  rw [Finset.sum_congr rfl fun l _ => by rw [h l]]

/-- The hidden layer's entry (r, c) — the rectified propagation of y, through the second linear map — depends on a through
    row r only. -/
theorem hidden_congr {n n' k h m : Nat} (a : FVec Ideal ⟨2, ![n, k]⟩ .f32) (a' : FVec Ideal ⟨2, ![n', k]⟩ .f32)
    (y : FVec Ideal ⟨2, ![k, h]⟩ .f32) (w : FVec Ideal ⟨2, ![h, m]⟩ .f32) (b : FVec Ideal ⟨2, ![1, m]⟩ .f32)
    (r : Fin n) (r' : Fin n') (c : Fin m) (hrow : ∀ l : Fin k, a (ix2 r l) = a' (ix2 r' l)) :
    linAt (relu (prop a y)) w b r c = linAt (relu (prop a' y)) w b r' c :=
  linAt_congr _ _ w b r r' c fun l => by
    rw [relu_ix2, relu_ix2, prop_ix2, prop_ix2, propAt_congr a a' y r r' l hrow]

/-- The two-layer network: propagate the first linear map of x, rectify, apply the second linear map, propagate again. -/
def gcn {n d h c : Nat} (a : FVec Ideal ⟨2, ![n, n]⟩ .f32) (x : FVec Ideal ⟨2, ![n, d]⟩ .f32)
    (w1 : FVec Ideal ⟨2, ![d, h]⟩ .f32) (b1 : FVec Ideal ⟨2, ![1, h]⟩ .f32)
    (w2 : FVec Ideal ⟨2, ![h, c]⟩ .f32) (b2 : FVec Ideal ⟨2, ![1, c]⟩ .f32) : FVec Ideal ⟨2, ![n, c]⟩ .f32 :=
  prop a (lin (relu (prop a (lin x w1 b1))) w2 b2)

end Cert.GcnSpec

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Layer0Value.lean ====
/-
  The first call: xw = x · W1 + b1, in blocks of 1000 rows.

  At grid point t the body multiplies rows 1000·t … 1000·t + 999 of x by the whole weight array, adds the bias row to
  every row, and stores the result as the block's 1000 rows of xw. An entry of x · W1 + b1 looks at one row of x only,
  so the block's entry (p, q) is entry (1000·t + p, q) of the whole-array function. The 10 blocks tile the 10000 rows
  (row r is in the block of point r / 1000), so after the last write-back the array holds x · W1 + b1.
-/
import proofs.«114648_g52656299049164_cont_9to1_m_1270_2_alg».proof.Proof.Gen.KernelIdeal.Frame
import proofs.«114648_g52656299049164_cont_9to1_m_1270_2_alg».proof.Proof.Spec
import proofs.«114648_g52656299049164_cont_9to1_m_1270_2_alg».proof.Proof.LibDot
import Idealize.ShloMosaic.Lib.Pipeline.Value
import Idealize.ShloMosaic.Lib.ValueLayout

set_option maxRecDepth 16384

noncomputable section

namespace Cert.KernelIdeal.Layer0

open Idealize.ShloMosaic Idealize.ShloMosaic.TcCoe Idealize.ShloMosaic.ValueIdx Idealize.SL.Sem
open Cert.KernelIdeal Cert.KernelIdeal.Gen Cert.GcnSpec

variable (V : (c : Dev nD) → (b : Ref sig .tc) → Buf (Elt Ideal) ((c : Thread nD τ).loc b))

/-- The all-zero offsets of a rectangle that starts at the origin. -/
theorem offs_zero : (![0, 0] : Fin 2 → Nat) = fun _ => 0 := funext fun a => by fin_cases a <;> rfl

/-- The body's one stored value at entry (p, q): the sum over k of (its block of x)(p, k) · W1(k, q), plus the bias row at q. -/
theorem payload_at (x0 : Vec Ideal S1000x128 .f32) (x1 : Vec Ideal S128x128 .f32) (x2 : Vec Ideal S1x128 .f32)
    (p : Fin 1000) (q : Fin 128) : k0_pay1 x0 x1 x2 (ix2 p q) = linAt x0 x1 x2 p q := by
  unfold k0_pay1 linAt
  rw [addf_apply, shapeCast_self, broadcastTo_1b_ab_apply]
  exact congrArg (· + x2 (ix2 (0 : Fin 1) q))
    (LibDot.matmul_zero_at dot_S1000x128_S128x128_S1000x128_1_0_0_1_n_n rfl rfl rfl rfl rfl rfl none x0 x1 p q)

/-- A block whose row p is row r of x stores, at (p, q), entry (r, q) of x · W1 + b1. -/
theorem block_entry (X : FVec Ideal ⟨2, ![10000, 128]⟩ .f32) (W : FVec Ideal ⟨2, ![128, 128]⟩ .f32) (B : FVec Ideal ⟨2, ![1, 128]⟩ .f32)
    (x0 : Vec Ideal S1000x128 .f32) (p : Fin 1000) (q : Fin 128) (r : Fin 10000)
    (hrow : ∀ l : Fin 128, x0 (ix2 p l) = X (ix2 r l)) :
    k0_pay1 x0 W B (ix2 p q) = lin X W B (ix2 r q) := by
  rw [payload_at, lin_ix2]; exact linAt_congr x0 X W B p r q hrow

/-- The four index maps over the grid: the blocks of x and of the result move down one block per point, the weight array's
    and the bias row's one block stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of x · W1 + b1, of the arrays as the call finds them. -/
theorem flushed_eq (c : Dev nD) (t : Fin cfg0.N) :
    (dat0 V c).flushed 3 t = ((cfg0.win 3).blk t).view.read (Elt Ideal)
      (lin (n := 10000) (k := 128) (m := 128) (V c main_arg1) (V c main_arg2) (V c main_v0)) := by
  show (cfg0.win 3).cut (grid0.coords t) ((dat0 V c).after 3 t) = _
  rw [after0_3]
  unfold out0_3
  rw [View.canon_unit_zero offs_zero]
  simp only [View.ld_unit_zero (S := S1000x128) offs_zero, View.ld_unit_zero (S := S128x128) offs_zero,
    View.ld_unit_zero (S := S1x128) offs_zero]
  obtain ⟨e0, e1, e2, e3, e4, e5, e6, e7⟩ := idx_facts t
  have ht : t.val < 10 := t.isLt
  have hW : iblk0 V c 1 t = V c main_arg2 := by
    funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have hB : iblk0 V c 2 t = V c main_v0 := by
    funext y
    show V c main_v0 (((cfg0.win 2).blk t).view.emb y) = V c main_v0 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  funext j
  show k0_pay1 (iblk0 V c 0 t) (iblk0 V c 1 t) (iblk0 V c 2 t) j
    = lin (n := 10000) (k := 128) (m := 128) (V c main_arg1) (V c main_arg2) (V c main_v0) (((cfg0.win 3).blk t).view.emb j)
  have hj0 : (j 0).val < 1000 := (j 0).isLt
  have hemb : ((cfg0.win 3).blk t).view.emb j
      = ix2 (n0 := 10000) (n1 := 128) ⟨t.val * 1000 + (j 0).val, by omega⟩ (j 1) := by
    funext a; apply Fin.ext
    match a with
    | ⟨0, _⟩ => show win0_3.index t (0 : Fin 2) * 1000 + 1 * (j 0).val = t.val * 1000 + (j 0).val; omega
    | ⟨1, _⟩ => show win0_3.index t (1 : Fin 2) * 128 + 1 * (j 1).val = (j 1).val; omega
  rw [hemb, hW, hB]
  refine (congrArg (k0_pay1 (iblk0 V c 0 t) (V c main_arg2) (V c main_v0)) (eq_ix2 (n0 := 1000) (n1 := 128) j)).trans ?_
  refine block_entry (V c main_arg1) (V c main_arg2) (V c main_v0) (iblk0 V c 0 t) (j 0) (j 1) _ fun l => ?_
  show V c main_arg1 (((cfg0.win 0).blk t).view.emb (ix2 (n0 := 1000) (n1 := 128) (j 0) l)) = _
  refine congrArg _ (funext fun a => Fin.ext ?_)
  match a with
  | ⟨0, _⟩ => show win0_0.index t (0 : Fin 2) * 1000 + 1 * (j 0).val = t.val * 1000 + (j 0).val; omega
  | ⟨1, _⟩ => show win0_0.index t (1 : Fin 2) * 128 + 1 * l.val = l.val; omega

/-- An index of the result array is in point t's block iff its row is among the block's 1000 rows. -/
theorem mem_blk (t : Fin cfg0.N) (i : S10000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v2).slice (win0_3.rect t)).set ↔ _
  rw [View.set_slice_whole, Rect.mem_set_unit]
  exact Iff.rfl

/-- Every row is in the block of the point row / 1000. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  refine ⟨⟨(i 0).val / 1000, by show (i 0).val / 1000 < 10; omega⟩, flush0_3 _, ?_⟩
  rw [mem_blk]
  obtain ⟨-, -, -, -, -, -, e6, e7⟩ := idx_facts ⟨(i 0).val / 1000, by show (i 0).val / 1000 < 10; omega⟩
  intro a
  match a with
  | ⟨0, _⟩ =>
    show win0_3.index _ (0 : Fin 2) * 1000 ≤ (i 0).val ∧ (i 0).val < win0_3.index _ (0 : Fin 2) * 1000 + 1000
    rw [e6]; show (i 0).val / 1000 * 1000 ≤ (i 0).val ∧ (i 0).val < (i 0).val / 1000 * 1000 + 1000; omega
  | ⟨1, _⟩ =>
    show win0_3.index _ (1 : Fin 2) * 128 ≤ (i 1).val ∧ (i 1).val < win0_3.index _ (1 : Fin 2) * 128 + 128
    rw [e7]; omega

/-- The array xw after the first call: x · W1 plus the bias row, whatever the call found there. -/
theorem final (c : Dev nD) :
    (dat0 V c).arrAt 3 cfg0.N = lin (n := 10000) (k := 128) (m := 128) (V c main_arg1) (V c main_arg2) (V c main_v0) :=
  (dat0 V c).arrAt_eq_of_cover 3 _ (fun t _ => flushed_eq V c t) cover

end Cert.KernelIdeal.Layer0

end
-- ==== Proof.Layer1Value.lean ====
/-
  The second call: h2 = relu(Adj · xw) · W2 + b2, in blocks of 400 rows.

  At grid point t the body multiplies rows 400·t … 400·t + 399 of the adjacency array by the WHOLE array xw, takes every
  entry's maximum with zero, multiplies by the whole second weight array, adds the second bias row to every row, and stores
  the result as the block's 400 rows of h2. Entry (p, c) of that chain looks at row p of the adjacency block only — through
  the 128 entries of row p of Adj · xw —, so it is entry (400·t + p, c) of the whole-array function. The 25 blocks tile the
  10000 rows (row r is in the block of point r / 400), so after the last write-back the array holds the whole-array function.
-/
import proofs.«114648_g52656299049164_cont_9to1_m_1270_2_alg».proof.Proof.Gen.KernelIdeal.Frame
import proofs.«114648_g52656299049164_cont_9to1_m_1270_2_alg».proof.Proof.Spec
import proofs.«114648_g52656299049164_cont_9to1_m_1270_2_alg».proof.Proof.LibDot
import Idealize.ShloMosaic.Lib.Pipeline.Value
import Idealize.ShloMosaic.Lib.ValueLayout

set_option maxRecDepth 16384

noncomputable section

namespace Cert.KernelIdeal.Layer1

open Idealize.ShloMosaic Idealize.ShloMosaic.TcCoe Idealize.ShloMosaic.ValueIdx Idealize.SL.Sem
open Cert.KernelIdeal Cert.KernelIdeal.Gen Cert.GcnSpec

variable (V : (c : Dev nD) → (b : Ref sig .tc) → Buf (Elt Ideal) ((c : Thread nD τ).loc b))

/-- The all-zero offsets of a rectangle that starts at the origin. -/
theorem offs_zero : (![0, 0] : Fin 2 → Nat) = fun _ => 0 := funext fun a => by fin_cases a <;> rfl

/-- The rectified product the body forms first — its block of Adj times xw, every entry's maximum with zero — is
    `relu (prop · ·)` of the two loaded values. -/
theorem rectified (x0 : FVec Ideal S400x10000 .f32) (x1 : FVec Ideal S10000x128 .f32) :
    maximumf (matmul dot_S400x10000_S10000x128_S400x128_1_0_0_1_n_n none x0
        (shapeCast S10000x128 x1 shapeCasts_S10000x128_S10000x128) (constant S400x128 .f32 0x00000000#32))
      (broadcast S400x128 (Scalar.ofBits (F := Ideal) .f32 0x00000000#32))
    = relu (prop (n := 400) (k := 10000) (m := 128) x0 x1) := by
  funext i
  obtain ⟨p, j, rfl⟩ : ∃ (p : Fin 400) (j : Fin 128), i = ix2 p j := ⟨i 0, i 1, eq_ix2 i⟩
  rw [maximumf_apply, shapeCast_self, relu_ix2, prop_ix2]
  exact congrArg (max · zero)
    (LibDot.matmul_zero_at dot_S400x10000_S10000x128_S400x128_1_0_0_1_n_n rfl rfl rfl rfl rfl rfl none x0 x1 p j)

/-- The body's one stored value at entry (p, q): the sum over j of relu(Adj-block · xw)(p, j) · W2(j, q), plus the bias row at q. -/
theorem payload_at (x0 : Vec Ideal S400x10000 .f32) (x1 : Vec Ideal S10000x128 .f32) (x2 : Vec Ideal S128x64 .f32)
    (x3 : Vec Ideal S1x64 .f32) (p : Fin 400) (q : Fin 64) :
    k1_pay1 x0 x1 x2 x3 (ix2 p q) = linAt (relu (prop (n := 400) (k := 10000) (m := 128) x0 x1)) x2 x3 p q := by
  unfold k1_pay1 linAt
  rw [addf_apply, rectified, shapeCast_self, broadcastTo_1b_ab_apply]
  exact congrArg (· + x3 (ix2 (0 : Fin 1) q))
    (LibDot.matmul_zero_at dot_S400x128_S128x64_S400x64_1_0_0_1_n_n rfl rfl rfl rfl rfl rfl none
      (relu (prop (n := 400) (k := 10000) (m := 128) x0 x1)) x2 p q)

/-- A block whose row p is row r of the adjacency array stores, at (p, q), entry (r, q) of relu(Adj · xw) · W2 + b2. -/
theorem block_entry (A : FVec Ideal ⟨2, ![10000, 10000]⟩ .f32) (Y : FVec Ideal ⟨2, ![10000, 128]⟩ .f32)
    (W : FVec Ideal ⟨2, ![128, 64]⟩ .f32) (B : FVec Ideal ⟨2, ![1, 64]⟩ .f32)
    (x0 : Vec Ideal S400x10000 .f32) (p : Fin 400) (q : Fin 64) (r : Fin 10000)
    (hrow : ∀ l : Fin 10000, x0 (ix2 p l) = A (ix2 r l)) :
    k1_pay1 x0 Y W B (ix2 p q) = lin (relu (prop A Y)) W B (ix2 r q) := by
  rw [payload_at, lin_ix2]; exact hidden_congr x0 A Y W B p r q hrow

/-- The five index maps over the grid: the blocks of Adj and of the result move down one block per point; xw's, the weight
    array's and the bias row's one block stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of relu(Adj · xw) · W2 + b2, of the arrays as the call finds them. -/
theorem flushed_eq (c : Dev nD) (t : Fin cfg1.N) :
    (dat1 V c).flushed 4 t = ((cfg1.win 4).blk t).view.read (Elt Ideal)
      (lin (n := 10000) (k := 128) (m := 64)
        (relu (prop (n := 10000) (k := 10000) (m := 128) (V c main_arg0) (V c main_v2))) (V c main_arg4) (V c main_v1)) := by
  show (cfg1.win 4).cut (grid1.coords t) ((dat1 V c).after 4 t) = _
  rw [after1_4]
  unfold out1_4
  rw [View.canon_unit_zero offs_zero]
  simp only [View.ld_unit_zero (S := S400x10000) offs_zero, View.ld_unit_zero (S := S10000x128) offs_zero,
    View.ld_unit_zero (S := S128x64) offs_zero, View.ld_unit_zero (S := S1x64) offs_zero]
  obtain ⟨e0, e1, e2, e3, e4, e5, e6, e7, e8, e9⟩ := idx_facts t
  have ht : t.val < 25 := t.isLt
  have hY : iblk1 V c 1 t = V c main_v2 := by
    funext y
    show V c main_v2 (((cfg1.win 1).blk t).view.emb y) = V c main_v2 y
    refine congrArg _ (funext fun a => Fin.ext ?_)
    match a with
    | ⟨0, _⟩ => show win1_1.index t (0 : Fin 2) * 10000 + 1 * (y 0).val = (y 0).val; omega
    | ⟨1, _⟩ => show win1_1.index t (1 : Fin 2) * 128 + 1 * (y 1).val = (y 1).val; omega
  have hW : iblk1 V c 2 t = V c main_arg4 := by
    funext y
    show V c main_arg4 (((cfg1.win 2).blk t).view.emb y) = V c main_arg4 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  have hB : iblk1 V c 3 t = V c main_v1 := by
    funext y
    show V c main_v1 (((cfg1.win 3).blk t).view.emb y) = V c main_v1 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 64 + 1 * (y 1).val = (y 1).val; omega
  funext j
  show k1_pay1 (iblk1 V c 0 t) (iblk1 V c 1 t) (iblk1 V c 2 t) (iblk1 V c 3 t) j
    = lin (n := 10000) (k := 128) (m := 64)
        (relu (prop (n := 10000) (k := 10000) (m := 128) (V c main_arg0) (V c main_v2))) (V c main_arg4) (V c main_v1)
        (((cfg1.win 4).blk t).view.emb j)
  have hj0 : (j 0).val < 400 := (j 0).isLt
  have hemb : ((cfg1.win 4).blk t).view.emb j
      = ix2 (n0 := 10000) (n1 := 64) ⟨t.val * 400 + (j 0).val, by omega⟩ (j 1) := by
    funext a; apply Fin.ext
    match a with
    | ⟨0, _⟩ => show win1_4.index t (0 : Fin 2) * 400 + 1 * (j 0).val = t.val * 400 + (j 0).val; omega
    | ⟨1, _⟩ => show win1_4.index t (1 : Fin 2) * 64 + 1 * (j 1).val = (j 1).val; omega
  rw [hemb, hY, hW, hB]
  refine (congrArg (k1_pay1 (iblk1 V c 0 t) (V c main_v2) (V c main_arg4) (V c main_v1)) (eq_ix2 (n0 := 400) (n1 := 64) j)).trans ?_
  refine block_entry (V c main_arg0) (V c main_v2) (V c main_arg4) (V c main_v1) (iblk1 V c 0 t) (j 0) (j 1) _ fun l => ?_
  show V c main_arg0 (((cfg1.win 0).blk t).view.emb (ix2 (n0 := 400) (n1 := 10000) (j 0) l)) = _
  refine congrArg _ (funext fun a => Fin.ext ?_)
  match a with
  | ⟨0, _⟩ => show win1_0.index t (0 : Fin 2) * 400 + 1 * (j 0).val = t.val * 400 + (j 0).val; omega
  | ⟨1, _⟩ => show win1_0.index t (1 : Fin 2) * 10000 + 1 * l.val = l.val; omega

/-- An index of the result array is in point t's block iff its row is among the block's 400 rows. -/
theorem mem_blk (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v3).slice (win1_4.rect t)).set ↔ _
  rw [View.set_slice_whole, Rect.mem_set_unit]
  exact Iff.rfl

/-- Every row is in the block of the point row / 400. -/
theorem cover (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  refine ⟨⟨(i 0).val / 400, by show (i 0).val / 400 < 25; omega⟩, flush1_4 _, ?_⟩
  rw [mem_blk]
  obtain ⟨-, -, -, -, -, -, -, -, e8, e9⟩ := idx_facts ⟨(i 0).val / 400, by show (i 0).val / 400 < 25; omega⟩
  intro a
  match a with
  | ⟨0, _⟩ =>
    show win1_4.index _ (0 : Fin 2) * 400 ≤ (i 0).val ∧ (i 0).val < win1_4.index _ (0 : Fin 2) * 400 + 400
    rw [e8]; show (i 0).val / 400 * 400 ≤ (i 0).val ∧ (i 0).val < (i 0).val / 400 * 400 + 400; omega
  | ⟨1, _⟩ =>
    show win1_4.index _ (1 : Fin 2) * 64 ≤ (i 1).val ∧ (i 1).val < win1_4.index _ (1 : Fin 2) * 64 + 64
    rw [e9]; omega

/-- The array h2 after the second call: relu(Adj · xw) · W2 plus the bias row, whatever the call found there. -/
theorem final (c : Dev nD) :
    (dat1 V c).arrAt 4 cfg1.N = lin (n := 10000) (k := 128) (m := 64)
      (relu (prop (n := 10000) (k := 10000) (m := 128) (V c main_arg0) (V c main_v2))) (V c main_arg4) (V c main_v1) :=
  (dat1 V c).arrAt_eq_of_cover 4 _ (fun t _ => flushed_eq V c t) cover

end Cert.KernelIdeal.Layer1

end
-- ==== Proof.Layer2Value.lean ====
/-
  The third call: out = Adj · h2, in blocks of 400 rows.

  At grid point t the body multiplies rows 400·t … 400·t + 399 of the adjacency array by the WHOLE hidden array (its
  window's one block is the array) and stores the product as the block's 400 rows of the result. An entry of a matrix
  product looks at one row of the left factor only, so the block's entry (p, q) is entry (400·t + p, q) of Adj · h2.
  The 25 blocks tile the 10000 rows — row r is in the block of point r / 400 — so after the last write-back the result
  array holds Adj · h2, whatever the call found in it.
-/
import proofs.«114648_g52656299049164_cont_9to1_m_1270_2_alg».proof.Proof.Gen.KernelIdeal.Frame
import proofs.«114648_g52656299049164_cont_9to1_m_1270_2_alg».proof.Proof.Spec
import proofs.«114648_g52656299049164_cont_9to1_m_1270_2_alg».proof.Proof.LibDot
import Idealize.ShloMosaic.Lib.Pipeline.Value

set_option maxRecDepth 16384

noncomputable section

namespace Cert.KernelIdeal.Layer2

open Idealize.ShloMosaic Idealize.ShloMosaic.TcCoe Idealize.ShloMosaic.ValueIdx Idealize.SL.Sem
open Cert.KernelIdeal Cert.KernelIdeal.Gen Cert.GcnSpec

variable (V : (c : Dev nD) → (b : Ref sig .tc) → Buf (Elt Ideal) ((c : Thread nD τ).loc b))

/-- The all-zero offsets of a rectangle that starts at the origin. -/
theorem offs_zero : (![0, 0] : Fin 2 → Nat) = fun _ => 0 := funext fun a => by fin_cases a <;> rfl

/-- The body's one stored value at entry (p, q): the sum over k of (its block of Adj)(p, k) · (h2)(k, q). -/
theorem payload_at (x0 : Vec Ideal S400x10000 .f32) (x1 : Vec Ideal S10000x64 .f32) (p : Fin 400) (q : Fin 64) :
    k2_pay1 x0 x1 (ix2 p q) = propAt x0 x1 p q := by
  unfold k2_pay1 propAt
  rw [shapeCast_self]
  exact LibDot.matmul_zero_at dot_S400x10000_S10000x64_S400x64_1_0_0_1_n_n rfl rfl rfl rfl rfl rfl none x0 x1 p q

/-- A block whose row p is row r of the adjacency array stores, at (p, q), entry (r, q) of Adj · h2. -/
theorem block_entry (A : FVec Ideal ⟨2, ![10000, 10000]⟩ .f32) (Y : FVec Ideal ⟨2, ![10000, 64]⟩ .f32)
    (x0 : Vec Ideal S400x10000 .f32) (p : Fin 400) (q : Fin 64) (r : Fin 10000)
    (hrow : ∀ l : Fin 10000, x0 (ix2 p l) = A (ix2 r l)) :
    k2_pay1 x0 Y (ix2 p q) = prop A Y (ix2 r q) := by
  rw [payload_at, prop_ix2]; exact propAt_congr x0 A Y p r q hrow

/-- The three index maps over the grid: the adjacency and result blocks move down one block per point, the hidden array's
    one block stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of Adj · h2, of the arrays as the call finds them. -/
theorem flushed_eq (c : Dev nD) (t : Fin cfg2.N) :
    (dat2 V c).flushed 2 t = ((cfg2.win 2).blk t).view.read (Elt Ideal)
      (prop (n := 10000) (k := 10000) (m := 64) (V c main_arg0) (V c main_v3)) := by
  show (cfg2.win 2).cut (grid2.coords t) ((dat2 V c).after 2 t) = _
  rw [after2_2]
  unfold out2_2
  rw [View.canon_unit_zero offs_zero]
  simp only [View.ld_unit_zero (S := S400x10000) offs_zero, View.ld_unit_zero (S := S10000x64) offs_zero]
  obtain ⟨e0, e1, e2, e3, e4, e5⟩ := idx_facts t
  have ht : t.val < 25 := t.isLt
  have hY : iblk2 V c 1 t = V c main_v3 := by
    funext y
    show V c main_v3 (((cfg2.win 1).blk t).view.emb y) = V c main_v3 y
    refine congrArg _ (funext fun a => Fin.ext ?_)
    match a with
    | ⟨0, _⟩ => show win2_1.index t (0 : Fin 2) * 10000 + 1 * (y 0).val = (y 0).val; omega
    | ⟨1, _⟩ => show win2_1.index t (1 : Fin 2) * 64 + 1 * (y 1).val = (y 1).val; omega
  funext j
  show k2_pay1 (iblk2 V c 0 t) (iblk2 V c 1 t) j
    = prop (n := 10000) (k := 10000) (m := 64) (V c main_arg0) (V c main_v3) (((cfg2.win 2).blk t).view.emb j)
  have hj0 : (j 0).val < 400 := (j 0).isLt
  have hemb : ((cfg2.win 2).blk t).view.emb j
      = ix2 (n0 := 10000) (n1 := 64) ⟨t.val * 400 + (j 0).val, by omega⟩ (j 1) := by
    funext a; apply Fin.ext
    match a with
    | ⟨0, _⟩ => show win2_2.index t (0 : Fin 2) * 400 + 1 * (j 0).val = t.val * 400 + (j 0).val; omega
    | ⟨1, _⟩ => show win2_2.index t (1 : Fin 2) * 64 + 1 * (j 1).val = (j 1).val; omega
  rw [hemb, hY]
  refine (congrArg (k2_pay1 (iblk2 V c 0 t) (V c main_v3)) (eq_ix2 (n0 := 400) (n1 := 64) j)).trans ?_
  refine block_entry (V c main_arg0) (V c main_v3) (iblk2 V c 0 t) (j 0) (j 1) _ fun l => ?_
  show V c main_arg0 (((cfg2.win 0).blk t).view.emb (ix2 (n0 := 400) (n1 := 10000) (j 0) l)) = _
  refine congrArg _ (funext fun a => Fin.ext ?_)
  match a with
  | ⟨0, _⟩ => show win2_0.index t (0 : Fin 2) * 400 + 1 * (j 0).val = t.val * 400 + (j 0).val; omega
  | ⟨1, _⟩ => show win2_0.index t (1 : Fin 2) * 10000 + 1 * l.val = l.val; omega

/-- An index of the result array is in point t's block iff its row is among the block's 400 rows. -/
theorem mem_blk (t : Fin cfg2.N) (i : S10000x64.Idx) :
    i ∈ ((cfg2.win 2).blk t).view.set ↔ ∀ a : Fin 2, win2_2.index t a * S400x64.size a ≤ (i a).val ∧ (i a).val < win2_2.index t a * S400x64.size a + S400x64.size a := by
  show i ∈ ((View.whole main_v4).slice (win2_2.rect t)).set ↔ _
  rw [View.set_slice_whole, Rect.mem_set_unit]
  exact Iff.rfl

/-- Every row is in the block of the point row / 400. -/
theorem cover (i : S10000x64.Idx) : ∃ t : Fin cfg2.N, (cfg2.win 2).flush t = true ∧ i ∈ ((cfg2.win 2).blk t).view.set := by
  have hi0 : (i 0).val < 10000 := (i 0).isLt
  have hi1 : (i 1).val < 64 := (i 1).isLt
  refine ⟨⟨(i 0).val / 400, by show (i 0).val / 400 < 25; omega⟩, flush2_2 _, ?_⟩
  rw [mem_blk]
  obtain ⟨-, -, -, -, e4, e5⟩ := idx_facts ⟨(i 0).val / 400, by show (i 0).val / 400 < 25; omega⟩
  intro a
  match a with
  | ⟨0, _⟩ =>
    show win2_2.index _ (0 : Fin 2) * 400 ≤ (i 0).val ∧ (i 0).val < win2_2.index _ (0 : Fin 2) * 400 + 400
    rw [e4]; show (i 0).val / 400 * 400 ≤ (i 0).val ∧ (i 0).val < (i 0).val / 400 * 400 + 400; omega
  | ⟨1, _⟩ =>
    show win2_2.index _ (1 : Fin 2) * 64 ≤ (i 1).val ∧ (i 1).val < win2_2.index _ (1 : Fin 2) * 64 + 64
    rw [e5]; omega

/-- The result array after the third call: the adjacency array times the hidden array, whatever the region found there. -/
theorem final (c : Dev nD) :
    (dat2 V c).arrAt 2 cfg2.N = prop (n := 10000) (k := 10000) (m := 64) (V c main_arg0) (V c main_v3) :=
  (dat2 V c).arrAt_eq_of_cover 2 _ (fun t _ => flushed_eq V c t) cover

end Cert.KernelIdeal.Layer2

end
-- ==== Proof.KernelValue.lean ====
/-
  The kernel's result array is the network's function of its arguments.

  The three calls run one after the other on one memory. Read backwards from the result: the third call leaves
  Adj · h2 of the arrays it finds; the adjacency array it finds is the launch's (no call and no host operation writes it),
  and h2 is what the second call left, relu(Adj · xw) · W2 + b2 of the arrays IT found; of those, xw is what the first call
  left, x · W1 + b1, and the two bias rows are the launch's bias vectors recast as one-row arrays by the two host
  operations that come first. Substituting gives `gcn` of the launch arrays.
-/
import proofs.«114648_g52656299049164_cont_9to1_m_1270_2_alg».proof.Proof.KernelRun
import proofs.«114648_g52656299049164_cont_9to1_m_1270_2_alg».proof.Proof.Layer0Value
import proofs.«114648_g52656299049164_cont_9to1_m_1270_2_alg».proof.Proof.Layer1Value
import proofs.«114648_g52656299049164_cont_9to1_m_1270_2_alg».proof.Proof.Layer2Value
import Idealize.ShloMosaic.Lib.StableHlo.Run

set_option maxRecDepth 16384

noncomputable section

namespace Cert.KernelIdeal.Network

open Idealize.ShloMosaic Idealize.ShloMosaic.TcCoe Idealize.ShloMosaic.ValueIdx Idealize.SL.Sem
open Cert.KernelIdeal Cert.KernelIdeal.Gen Cert.GcnSpec

variable (m : (ℓ : Loc nD τ sig) → Buf (Elt Ideal) ℓ) (ρ : Dev nD → PrngReg)

/-! ## After the two host operations: the arguments as launched, the two bias rows recast -/

/-- The two host operations write the two one-row arrays only: any other buffer is as launched. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))).trans rfl

/-- The first bias row is the first bias vector recast as a one-row array. -/
theorem W1_main_v0 (c : Dev nD) : W1 m ρ c (Proc.devRef .tc main_v0)
    = shapeCast S1x128 (m ((c : Thread nD τ).loc main_arg3)) shapeCasts_S128_S1x128 := by
  show StableHlo.after hostOps0 (W0 m ρ c) (Proc.devRef .tc main_v0) = _
  after_results
  rfl

/-- The second bias row is the second bias vector recast as a one-row array. -/
theorem W1_main_v1 (c : Dev nD) : W1 m ρ c (Proc.devRef .tc main_v1)
    = shapeCast S1x64 (m ((c : Thread nD τ).loc main_arg5)) shapeCasts_S64_S1x64 := by
  show StableHlo.after hostOps0 (W0 m ρ c) (Proc.devRef .tc main_v1) = _
  after_results
  rfl

/-! ## What each call finds, and what it leaves -/

theorem V1_main_arg1 (c : Dev nD) : V1 m ρ c main_arg1 = m ((c : Thread nD τ).loc main_arg1) :=
  W1_of_ne m ρ c main_arg1 (by decide) (by decide)
theorem V1_main_arg2 (c : Dev nD) : V1 m ρ c main_arg2 = m ((c : Thread nD τ).loc main_arg2) :=
  W1_of_ne m ρ c main_arg2 (by decide) (by decide)
theorem V1_main_v0 (c : Dev nD) : V1 m ρ c main_v0
    = shapeCast S1x128 (m ((c : Thread nD τ).loc main_arg3)) shapeCasts_S128_S1x128 := W1_main_v0 m ρ c

/-- The first call leaves x · W1 + b1 of the launch arrays in xw. -/
theorem V2_main_v2 (c : Dev nD) : V2 m ρ c main_v2
    = lin (n := 10000) (k := 128) (m := 128) (m ((c : Thread nD τ).loc main_arg1)) (m ((c : Thread nD τ).loc main_arg2))
        (shapeCast S1x128 (m ((c : Thread nD τ).loc main_arg3)) shapeCasts_S128_S1x128) :=
  (W2_arr m ρ c 3).trans ((Layer0.final (V1 m ρ) c).trans (by rw [V1_main_arg1, V1_main_arg2, V1_main_v0]))

/-- The first call writes xw only: the adjacency array, the second weight array and the second bias row pass through it. -/
theorem V2_main_arg0 (c : Dev nD) : V2 m ρ c main_arg0 = m ((c : Thread nD τ).loc main_arg0) :=
  (W2_of_ne m ρ c main_arg0 (by decide)).trans (W1_of_ne m ρ c main_arg0 (by decide) (by decide))
theorem V2_main_arg4 (c : Dev nD) : V2 m ρ c main_arg4 = m ((c : Thread nD τ).loc main_arg4) :=
  (W2_of_ne m ρ c main_arg4 (by decide)).trans (W1_of_ne m ρ c main_arg4 (by decide) (by decide))
theorem V2_main_v1 (c : Dev nD) : V2 m ρ c main_v1
    = shapeCast S1x64 (m ((c : Thread nD τ).loc main_arg5)) shapeCasts_S64_S1x64 :=
  (W2_of_ne m ρ c main_v1 (by decide)).trans (W1_main_v1 m ρ c)

/-- The second call leaves relu(Adj · xw) · W2 + b2 in h2, of the launch arrays and the first call's xw. -/
theorem V3_main_v3 (c : Dev nD) : V3 m ρ c main_v3
    = lin (n := 10000) (k := 128) (m := 64)
        (relu (prop (n := 10000) (k := 10000) (m := 128) (m ((c : Thread nD τ).loc main_arg0))
          (lin (n := 10000) (k := 128) (m := 128) (m ((c : Thread nD τ).loc main_arg1)) (m ((c : Thread nD τ).loc main_arg2))
            (shapeCast S1x128 (m ((c : Thread nD τ).loc main_arg3)) shapeCasts_S128_S1x128))))
        (m ((c : Thread nD τ).loc main_arg4))
        (shapeCast S1x64 (m ((c : Thread nD τ).loc main_arg5)) shapeCasts_S64_S1x64) :=
  (W3_arr m ρ c 4).trans ((Layer1.final (V2 m ρ) c).trans (by rw [V2_main_arg0, V2_main_v2, V2_main_arg4, V2_main_v1]))

/-- The second call reads the adjacency array through an input window: it leaves it as found. -/
theorem V3_main_arg0 (c : Dev nD) : V3 m ρ c main_arg0 = m ((c : Thread nD τ).loc main_arg0) :=
  (W3_arr m ρ c 0).trans (((dat1 (V2 m ρ) c).arrAt_in 0 rfl _).trans ((A_eq1 (V2 m ρ) c 0).trans (V2_main_arg0 m ρ c)))

/-- THE RESULT ARRAY after the third call: the network's function of the launch arrays. -/
theorem result (c : Dev nD) : W4 m ρ c (Proc.devRef .tc main_v4)
    = gcn (n := 10000) (d := 128) (h := 128) (c := 64) (m ((c : Thread nD τ).loc main_arg0)) (m ((c : Thread nD τ).loc main_arg1))
        (m ((c : Thread nD τ).loc main_arg2)) (shapeCast S1x128 (m ((c : Thread nD τ).loc main_arg3)) shapeCasts_S128_S1x128)
        (m ((c : Thread nD τ).loc main_arg4)) (shapeCast S1x64 (m ((c : Thread nD τ).loc main_arg5)) shapeCasts_S64_S1x64) :=
  (W4_arr m ρ c 2).trans ((Layer2.final (V3 m ρ) c).trans (by rw [V3_main_arg0, V3_main_v3]; rfl))

/-! ## The run, read -/

/-- Every weakly fair execution of the kernel's program terminates, nothing faulting, with the result array at the network's
    function of the launch arrays and every argument array as launched. -/
theorem run : θ_run defs (onTc (τ := τ) (main (F := Ideal))) ⟨m, fun _ => 0, ρ⟩ (fun r => ∀ c : Dev nD,
      r.2.mem ((c.tc : Thread nD τ).loc main_v4)
        = gcn (n := 10000) (d := 128) (h := 128) (c := 64) (m ((c : Thread nD τ).loc main_arg0)) (m ((c : Thread nD τ).loc main_arg1))
            (m ((c : Thread nD τ).loc main_arg2)) (shapeCast S1x128 (m ((c : Thread nD τ).loc main_arg3)) shapeCasts_S128_S1x128)
            (m ((c : Thread nD τ).loc main_arg4)) (shapeCast S1x64 (m ((c : Thread nD τ).loc main_arg5)) shapeCasts_S64_S1x64)
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (result m ρ c),
     (h c _ (mem_uc main_arg0 (by decide))).trans (W4_main_arg0 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩)
    (Run.run_all m ρ)

end Cert.KernelIdeal.Network

end
-- ==== Proof.RefValue.lean ====
/-
  The reference's result is the network's function of its arguments.

  The reference is thirteen whole-array operations. Read at an entry, each of its four products is the plain sum over the
  shared axis (`prop`), each addition of a bias row broadcast over the rows is the linear map with that bias (`lin`), and
  the maximum with a broadcast zero is the rectifier (`relu`). Composed in the reference's order they are `gcn`.
-/
import proofs.«114648_g52656299049164_cont_9to1_m_1270_2_alg».proof.Proof.Gen.ReferenceIdeal.Run
import proofs.«114648_g52656299049164_cont_9to1_m_1270_2_alg».proof.Proof.Spec
import proofs.«114648_g52656299049164_cont_9to1_m_1270_2_alg».proof.Proof.LibDot
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.GcnSpec

/-- The host's product with one shared axis and no batch axis is the matrix product. -/
theorem dot_eq_prop {n k m : Nat} (d : DotDims ⟨2, ![n, k]⟩ ⟨2, ![k, m]⟩ ⟨2, ![n, m]⟩)
    (hl : d.lhsContracting = [1]) (hr : d.rhsContracting = [0]) (hln : d.lhsNonContracting = [0])
    (hrn : d.rhsNonContracting = [1]) (hlb : d.lhsBatch = []) (hrb : d.rhsBatch = [])
    (a : FVec Ideal ⟨2, ![n, k]⟩ .f32) (y : FVec Ideal ⟨2, ![k, m]⟩ .f32) :
    Host.dotGeneral d none a y = prop a y := by
  funext i
  obtain ⟨r, c, rfl⟩ : ∃ (r : Fin n) (c : Fin m), i = ix2 r c := ⟨i 0, i 1, eq_ix2 i⟩
  exact LibDot.dotGeneral_at d hl hr hln hrn hlb hrb none .single a y r c

/-- A matrix product plus a one-row array broadcast over the rows is the linear map with that bias row. -/
theorem add_row_eq_lin {n k m : Nat} (x : FVec Ideal ⟨2, ![n, k]⟩ .f32) (w : FVec Ideal ⟨2, ![k, m]⟩ .f32)
    (b : FVec Ideal ⟨2, ![1, m]⟩ .f32) (h : (⟨2, ![1, m]⟩ : Shape).BroadcastsInDim (⟨2, ![n, m]⟩ : Shape) ![0, 1]) :
    addf (prop x w) (broadcastInDim (⟨2, ![n, m]⟩ : Shape) ![0, 1] h b) = lin x w b := by
  funext i
  obtain ⟨r, j, rfl⟩ : ∃ (r : Fin n) (j : Fin m), i = ix2 r j := ⟨i 0, i 1, eq_ix2 i⟩
  rw [addf_apply, prop_ix2, lin_ix2]
  refine congrArg (propAt x w r j + ·) (broadcastInDim_apply _ h b _ (ix2 (0 : Fin 1) j) fun ax => ?_)
  match ax with
  | ⟨0, _⟩ => exact (if_pos rfl).symm
  | ⟨1, _⟩ =>
    show j.val = if m = 1 then 0 else j.val
    split
    · have := j.isLt; omega
    · rfl

/-- The maximum with the zero word broadcast to every entry is the rectifier. -/
theorem max_zero_eq_relu {n m : Nat} (y : FVec Ideal ⟨2, ![n, m]⟩ .f32)
    (h : (⟨0, ![]⟩ : Shape).BroadcastsInDim (⟨2, ![n, m]⟩ : Shape) ![]) :
    maximumf y (broadcastInDim (⟨2, ![n, m]⟩ : Shape) ![] h (constant (F := Ideal) ⟨0, ![]⟩ .f32 0x00000000#32)) = relu y := by
  funext i
  rw [maximumf_apply]
  exact congrArg (max (y i)) (broadcastInDim_apply _ h _ i ix0 fun a => a.elim0)

/-- The reference's composed term is the network's function, with each bias read through its one-row broadcast. -/
theorem result_eq (A : FVec Ideal S10000x10000 .f32) (X : FVec Ideal S10000x128 .f32) (W1 : FVec Ideal S128x128 .f32)
    (b1 : FVec Ideal S128 .f32) (W2 : FVec Ideal S128x64 .f32) (b2 : FVec Ideal S64 .f32) :
    Host.dotGeneral dot_S10000x10000_S10000x64_S10000x64_1_0_0_1_n_n none A (addf (Host.dotGeneral dot_S10000x128_S128x64_S10000x64_1_0_0_1_n_n none (maximumf (Host.dotGeneral dot_S10000x10000_S10000x128_S10000x128_1_0_0_1_n_n none A (addf (Host.dotGeneral dot_S10000x128_S128x128_S10000x128_1_0_0_1_n_n none X W1) (broadcastInDim S10000x128 ![0, 1] bcast_S1x128_S10000x128_0_1 (broadcastInDim S1x128 ![1] bcast_S128_S1x128_1 b1)))) (broadcastInDim S10000x128 ![] bcast_S_S10000x128 (constant S_ .f32 0x00000000#32))) W2) (broadcastInDim S10000x64 ![0, 1] bcast_S1x64_S10000x64_0_1 (broadcastInDim S1x64 ![1] bcast_S64_S1x64_1 b2)))
    = gcn (n := 10000) (d := 128) (h := 128) (c := 64) A X W1 (broadcastInDim S1x128 ![1] bcast_S128_S1x128_1 b1) W2
        (broadcastInDim S1x64 ![1] bcast_S64_S1x64_1 b2) := by
  rw [dot_eq_prop dot_S10000x128_S128x128_S10000x128_1_0_0_1_n_n rfl rfl rfl rfl rfl rfl,
    add_row_eq_lin,
    dot_eq_prop dot_S10000x10000_S10000x128_S10000x128_1_0_0_1_n_n rfl rfl rfl rfl rfl rfl,
    max_zero_eq_relu,
    dot_eq_prop dot_S10000x128_S128x64_S10000x64_1_0_0_1_n_n rfl rfl rfl rfl rfl rfl,
    add_row_eq_lin,
    dot_eq_prop dot_S10000x10000_S10000x64_S10000x64_1_0_0_1_n_n rfl rfl rfl rfl rfl rfl]
  rfl

end Cert.ReferenceIdeal.RefValue

end
-- ==== Proof.LibCastBcast.lean ====
/-
  A rank-1 array recast as a one-row matrix is the same array as the one `broadcast_in_dim` makes of it
  along the column axis: both read, at every index, the vector's entry at the index's column coordinate.
-/
import Idealize.ShloMosaic.Lib.Pipeline.Value
import Idealize.ShloMosaic.Lib.ValueIdx

namespace Cert.LibCastBcast

open Idealize.ShloMosaic Idealize.ShloMosaic.ValueIdx

variable {α : Type}

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.lean ====
/-
  Two stacked dense graph-convolution layers, out = Adj · (relu(Adj · (x · W1 + b1)) · W2 + b2), computed by three
  row-blocked calls, against the same formula computed by whole-array operations.

  Over the extended reals both programs compute ONE function of the six argument arrays, entry by entry (`gcn`): every
  product on either side is the plain sum over the shared axis, in the same order of factors; a bias is added after its
  product on both sides; the rectifier is the maximum with the same zero word on both sides. So no algebraic law is
  needed and the finiteness of the inputs is never used. The kernel's side reads each call's result array as a whole-array
  function of what the call finds (a block of rows of a product depends on the same block of rows of the left factor
  only, and the blocks tile the rows), and chains the three through the memory they share. The two programs spell the
  bias rows differently — the kernel recasts each bias vector as a one-row array, the reference broadcasts it to one —
  and the two spellings are the same array.

  The idealized kernel is the kernel's own text read over the extended reals: the idealization rewrote nothing, and
  there is nothing to preserve.
-/
import proofs.«114648_g52656299049164_cont_9to1_m_1270_2_alg».proof.Defs
import proofs.«114648_g52656299049164_cont_9to1_m_1270_2_alg».proof.Proof.Gen.Kernel
import proofs.«114648_g52656299049164_cont_9to1_m_1270_2_alg».proof.Proof.Gen.Kernel.Skeleton
import proofs.«114648_g52656299049164_cont_9to1_m_1270_2_alg».proof.Proof.Gen.Kernel.Launch
import proofs.«114648_g52656299049164_cont_9to1_m_1270_2_alg».proof.Proof.Gen.Kernel.Points
import proofs.«114648_g52656299049164_cont_9to1_m_1270_2_alg».proof.Proof.Gen.Kernel.Frame
import proofs.«114648_g52656299049164_cont_9to1_m_1270_2_alg».proof.Proof.Gen.KernelIdeal
import proofs.«114648_g52656299049164_cont_9to1_m_1270_2_alg».proof.Proof.Gen.KernelIdeal.Skeleton
import proofs.«114648_g52656299049164_cont_9to1_m_1270_2_alg».proof.Proof.Gen.KernelIdeal.Launch
import proofs.«114648_g52656299049164_cont_9to1_m_1270_2_alg».proof.Proof.Gen.KernelIdeal.Points
import proofs.«114648_g52656299049164_cont_9to1_m_1270_2_alg».proof.Proof.Gen.KernelIdeal.Frame
import proofs.«114648_g52656299049164_cont_9to1_m_1270_2_alg».proof.Proof.Gen.ReferenceIdeal
import proofs.«114648_g52656299049164_cont_9to1_m_1270_2_alg».proof.Proof.Gen.Pre_finite_inputs
import proofs.«114648_g52656299049164_cont_9to1_m_1270_2_alg».proof.Proof.Gen.ReferenceIdeal.Run
import proofs.«114648_g52656299049164_cont_9to1_m_1270_2_alg».proof.Proof.KernelValue
import proofs.«114648_g52656299049164_cont_9to1_m_1270_2_alg».proof.Proof.RefValue
import proofs.«114648_g52656299049164_cont_9to1_m_1270_2_alg».proof.Proof.LibCastBcast
import Idealize.ShloMosaic.Adequacy
import Idealize.ShloMosaic.Init

noncomputable section

namespace Cert.Proof

open Idealize.ShloMosaic Idealize.SL.Sem Cert.GcnSpec

/-- The network's function does not care how a bias row is spelt: the bias vector broadcast to a one-row array, or recast
    as one. -/
theorem gcn_bias_rows (A : FVec Ideal ⟨2, ![10000, 10000]⟩ .f32) (X : FVec Ideal ⟨2, ![10000, 128]⟩ .f32)
    (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32)
    (h1 : (⟨1, ![128]⟩ : Shape).ShapeCasts ⟨2, ![1, 128]⟩) (h1' : (⟨1, ![128]⟩ : Shape).BroadcastsInDim (⟨2, ![1, 128]⟩ : Shape) ![1])
    (h2 : (⟨1, ![64]⟩ : Shape).ShapeCasts ⟨2, ![1, 64]⟩) (h2' : (⟨1, ![64]⟩ : Shape).BroadcastsInDim (⟨2, ![1, 64]⟩ : Shape) ![1]) :
    gcn A X W1 (broadcastInDim (⟨2, ![1, 128]⟩ : Shape) ![1] h1' b1) W2 (broadcastInDim (⟨2, ![1, 64]⟩ : Shape) ![1] h2' b2)
      = gcn A X W1 (shapeCast ⟨2, ![1, 128]⟩ b1 h1) W2 (shapeCast ⟨2, ![1, 64]⟩ b2 h2) := by
  rw [Cert.LibCastBcast.row_cast_eq_bcast b1 h1 h1', Cert.LibCastBcast.row_cast_eq_bcast b2 h2 h2']

/-- From memories that agree on the six arguments both programs end with the network's function of them in their result
    arrays, and with the adjacency array — the second result — as launched. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, _, Cert.KernelIdeal.Network.run m ρ, ?_⟩
  refine (θ_run Cert.ReferenceIdeal.defs _ _).mono
    (fun _ h c => ⟨(h c).1.trans ?_, (h c).2.1.trans (hagree c).1, (h c).2.2⟩)
    (Cert.ReferenceIdeal.Value.run (F := Ideal) m' ρ')
  obtain ⟨a0, a1, a2, a3, a4, a5⟩ := hagree c
  rw [Cert.ReferenceIdeal.RefValue.result_eq, a0, a1, a2, a3, a4, a5]
  exact gcn_bias_rows _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
